-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S16x2x128x128 : Shape := ⟨4, ![16, 2, 128, 128]⟩
abbrev S16x2x128 : Shape := ⟨3, ![16, 2, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S16x2x128x128 : S_.BroadcastsInDim S16x2x128x128 (![] : Fin 0 → Fin S16x2x128x128.rank)
  reducesTo_S16x2x128x128_S_d0_1_2_3 : S16x2x128x128.ReducesTo [0, 1, 2, 3] S_
  bcast_S_S16x2x128 : S_.BroadcastsInDim S16x2x128 (![] : Fin 0 → Fin S16x2x128.rank)
  reducesTo_S16x2x128_S_d0_1_2 : S16x2x128.ReducesTo [0, 1, 2] S_

variable [Facts]

def fn {F : FTy → Type} [FloatOps F] (main_arg0 : FVec F S524288x128 .f32) (main_arg1 : FVec F S16x2x128x128 .f32) (main_arg2 : FVec F S16x2x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S16x2x128x128 .f32 := Host.absf main_arg1
  let main_cst_0 : FVec F S_ .f32 := constant S_ .f32 0x7F800000#32
  let main_v5 : FVec F S16x2x128x128 .f32 := broadcastInDim S16x2x128x128 ![] bcast_S_S16x2x128x128 main_cst_0
  let main_v6 : IVec S16x2x128x128 1 := cmpf .olt main_v4 main_v5
  let main_c_1 : IVec S_ 1 := constantI S_ 1 1#1
  let main_v7 : IVec S_ 1 := (fun x v => Host.reduce IntOp.andi x v reducesTo_S16x2x128x128_S_d0_1_2_3 h_S_) main_v6 main_c_1
  let main_v8 : IVec S_ 1 := andi main_v3 main_v7
  let main_v9 : FVec F S16x2x128 .f32 := Host.absf main_arg2
  let main_cst_2 : FVec F S_ .f32 := constant S_ .f32 0x7F800000#32
  let main_v10 : FVec F S16x2x128 .f32 := broadcastInDim S16x2x128 ![] bcast_S_S16x2x128 main_cst_2
  let main_v11 : IVec S16x2x128 1 := cmpf .olt main_v9 main_v10
  let main_c_3 : IVec S_ 1 := constantI S_ 1 1#1
  let main_v12 : IVec S_ 1 := (fun x v => Host.reduce IntOp.andi x v reducesTo_S16x2x128_S_d0_1_2 h_S_) main_v11 main_c_3
  let main_v13 : IVec S_ 1 := andi main_v8 main_v12
  main_v13
-- ==== Kernel.lean ====
abbrev S524288x128 : Shape := ⟨2, ![524288, 128]⟩
abbrev S16x2x128x128 : Shape := ⟨4, ![16, 2, 128, 128]⟩
abbrev S16x2x128 : Shape := ⟨3, ![16, 2, 128]⟩
abbrev S16x32768x128 : Shape := ⟨3, ![16, 32768, 128]⟩
abbrev S1x4096x128 : Shape := ⟨3, ![1, 4096, 128]⟩
abbrev S1x2x128x128 : Shape := ⟨4, ![1, 2, 128, 128]⟩
abbrev S1x2x128 : Shape := ⟨3, ![1, 2, 128]⟩
abbrev S4096x128 : Shape := ⟨2, ![4096, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩

abbrev nBuf : Space → Nat
  | .hbm => 7
  | .vmem => 8
  | .smem => 0
  | _ => 0

abbrev bufTy : (tb : Table) → Fin (tcTables nBuf tb) → BufTy
  | .hbm, ⟨0, _⟩ => ⟨S524288x128, .f32⟩
  | .hbm, ⟨1, _⟩ => ⟨S16x2x128x128, .f32⟩
  | .hbm, ⟨2, _⟩ => ⟨S16x2x128, .f32⟩
  | .hbm, ⟨3, _⟩ => ⟨S16x32768x128, .f32⟩
  | .hbm, ⟨4, _⟩ => ⟨S16x2x128x128, .f32⟩
  | .hbm, ⟨5, _⟩ => ⟨S16x32768x128, .f32⟩
  | .hbm, ⟨6, _⟩ => ⟨S524288x128, .f32⟩
  | .local _ .vmem, ⟨0, _⟩ => ⟨S1x4096x128, .f32⟩
  | .local _ .vmem, ⟨1, _⟩ => ⟨S1x4096x128, .f32⟩
  | .local _ .vmem, ⟨2, _⟩ => ⟨S1x2x128x128, .f32⟩
  | .local _ .vmem, ⟨3, _⟩ => ⟨S1x2x128x128, .f32⟩
  | .local _ .vmem, ⟨4, _⟩ => ⟨S1x2x128, .f32⟩
  | .local _ .vmem, ⟨5, _⟩ => ⟨S1x2x128, .f32⟩
  | .local _ .vmem, ⟨6, _⟩ => ⟨S1x4096x128, .f32⟩
  | .local _ .vmem, ⟨7, _⟩ => ⟨S1x4096x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S524288x128_S16x32768x128 : S524288x128.ShapeCasts S16x32768x128
  transposes_S16x2x128x128_S16x2x128x128_0_1_3_2 : S16x2x128x128.Transposes [0, 1, 3, 2] S16x2x128x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x2x128x128_S1x1x128x128_0_0_0_0 : ∀ a, (![0, 0, 0, 0] : Fin 4 → Nat) a + S1x1x128x128.size a ≤ S1x2x128x128.size a
  h_S1x1x128x128 : 0 < S1x1x128x128.numel
  shapeCasts_S1x1x128x128_S128x128 : S1x1x128x128.ShapeCasts S128x128
  bitsLt_bf16_f32 : FTy.bits .bf16 < FTy.bits .f32
  inb_S1x2x128x128_S1x1x128x128_0_1_0_0 : ∀ a, (![0, 1, 0, 0] : Fin 4 → Nat) a + S1x1x128x128.size a ≤ S1x2x128x128.size a
  inb_S1x2x128_S1x1x128_0_0_0 : ∀ a, (![0, 0, 0] : Fin 3 → Nat) a + S1x1x128.size a ≤ S1x2x128.size a
  h_S1x1x128 : 0 < S1x1x128.numel
  shapeCasts_S1x1x128_S128 : S1x1x128.ShapeCasts S128
  inb_S1x2x128_S1x1x128_0_1_0 : ∀ a, (![0, 1, 0] : Fin 3 → Nat) a + S1x1x128.size a ≤ S1x2x128.size a
  shapeCasts_S128_S1x128 : S128.ShapeCasts S1x128
  broadcasts_S1x128_S4096x128 : S1x128.Broadcasts S4096x128
  shapeCasts_S4096x128_S1x4096x128 : S4096x128.ShapeCasts S1x4096x128
  shapeCasts_S16x32768x128_S524288x128 : S16x32768x128.ShapeCasts S524288x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S16x32768x128.size a
  hwx0_0 : ∀ i : grid0.Coords, EltTy.bits .f32 = 32 ∨ (Rect.block (s := S16x32768x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128x128.size a ≤ S16x2x128x128.size a
  hwx0_1 : ∀ i : grid0.Coords, EltTy.bits .f32 = 32 ∨ (Rect.block (s := S16x2x128x128) S1x2x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x128.size a ≤ S16x2x128.size a
  hwx0_2 : ∀ i : grid0.Coords, EltTy.bits .f32 = 32 ∨ (Rect.block (s := S16x2x128) S1x2x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S16x32768x128.size a
  hwx0_3 : ∀ i : grid0.Coords, EltTy.bits .f32 = 32 ∨ (Rect.block (s := S16x32768x128) S1x4096x128.size (cc0_transform_3 i) (hinb0_3 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S16x2x128x128 : Shape := ⟨4, ![16, 2, 128, 128]⟩
abbrev S16x2x128 : Shape := ⟨3, ![16, 2, 128]⟩
abbrev S16x32768x128 : Shape := ⟨3, ![16, 32768, 128]⟩
abbrev S16x1x128x128 : Shape := ⟨4, ![16, 1, 128, 128]⟩
abbrev S16x128x128 : Shape := ⟨3, ![16, 128, 128]⟩
abbrev S16x1x128 : Shape := ⟨3, ![16, 1, 128]⟩
abbrev S16x128 : Shape := ⟨2, ![16, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S16x2x128x128, .f32⟩
  | .hbm, ⟨2, _⟩ => ⟨S16x2x128, .f32⟩
  | .hbm, ⟨3, _⟩ => ⟨S16x32768x128, .f32⟩
  | .hbm, ⟨4, _⟩ => ⟨S16x1x128x128, .f32⟩
  | .hbm, ⟨5, _⟩ => ⟨S16x128x128, .f32⟩
  | .hbm, ⟨6, _⟩ => ⟨S16x32768x128, .f32⟩
  | .hbm, ⟨7, _⟩ => ⟨S16x1x128, .f32⟩
  | .hbm, ⟨8, _⟩ => ⟨S16x128, .f32⟩
  | .hbm, ⟨9, _⟩ => ⟨S16x1x128, .f32⟩
  | .hbm, ⟨10, _⟩ => ⟨S16x32768x128, .f32⟩
  | .hbm, ⟨11, _⟩ => ⟨S16x32768x128, .f32⟩
  | .hbm, ⟨12, _⟩ => ⟨S_, .f32⟩
  | .hbm, ⟨13, _⟩ => ⟨S16x32768x128, .f32⟩
  | .hbm, ⟨14, _⟩ => ⟨S16x32768x128, .f32⟩
  | .hbm, ⟨15, _⟩ => ⟨S16x1x128x128, .f32⟩
  | .hbm, ⟨16, _⟩ => ⟨S16x128x128, .f32⟩
  | .hbm, ⟨17, _⟩ => ⟨S16x32768x128, .f32⟩
  | .hbm, ⟨18, _⟩ => ⟨S16x1x128, .f32⟩
  | .hbm, ⟨19, _⟩ => ⟨S16x128, .f32⟩
  | .hbm, ⟨20, _⟩ => ⟨S16x1x128, .f32⟩
  | .hbm, ⟨21, _⟩ => ⟨S16x32768x128, .f32⟩
  | .hbm, ⟨22, _⟩ => ⟨S16x32768x128, .f32⟩
  | .hbm, ⟨23, _⟩ => ⟨S_, .f32⟩
  | .hbm, ⟨24, _⟩ => ⟨S16x32768x128, .f32⟩
  | .hbm, ⟨25, _⟩ => ⟨S16x32768x128, .f32⟩
  | .hbm, ⟨26, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_cst : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call1_cst : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S524288x128_S16x32768x128 : S524288x128.ShapeCasts S16x32768x128
  slices_S16x2x128x128_S16x1x128x128_0_0_0_0 : S16x2x128x128.Slices ![0, 0, 0, 0] S16x1x128x128
  shapeCasts_S16x1x128x128_S16x128x128 : S16x1x128x128.ShapeCasts S16x128x128
  slices_S16x2x128_S16x1x128_0_0_0 : S16x2x128.Slices ![0, 0, 0] S16x1x128
  shapeCasts_S16x1x128_S16x128 : S16x1x128.ShapeCasts S16x128
  bcast_S16x128_S16x1x128_0_2 : S16x128.BroadcastsInDim S16x1x128 (![0, 2] : Fin 2 → Fin S16x1x128.rank)
  bcast_S16x1x128_S16x32768x128_0_1_2 : S16x1x128.BroadcastsInDim S16x32768x128 (![0, 1, 2] : Fin 3 → Fin S16x32768x128.rank)
  bcast_S_S16x32768x128 : S_.BroadcastsInDim S16x32768x128 (![] : Fin 0 → Fin S16x32768x128.rank)
  slices_S16x2x128x128_S16x1x128x128_0_1_0_0 : S16x2x128x128.Slices ![0, 1, 0, 0] S16x1x128x128
  slices_S16x2x128_S16x1x128_0_1_0 : S16x2x128.Slices ![0, 1, 0] S16x1x128
  shapeCasts_S16x32768x128_S524288x128 : S16x32768x128.ShapeCasts S524288x128
  dot_S16x32768x128_S16x128x128_S16x32768x128_2_2_1_1_0_0_wf : DotDims.WF S16x32768x128 S16x128x128 S16x32768x128 [2] [2] [1] [1] [0] [0]

variable [Facts₀]

def dot_S16x32768x128_S16x128x128_S16x32768x128_2_2_1_1_0_0 : DotDims S16x32768x128 S16x128x128 S16x32768x128 where
  lhsContracting := [2]
  rhsContracting := [2]
  lhsNonContracting := [1]
  rhsNonContracting := [1]
  lhsBatch := [0]
  rhsBatch := [0]
  wf := dot_S16x32768x128_S16x128x128_S16x32768x128_2_2_1_1_0_0_wf

class Facts : Prop extends Facts₀ where

variable [Facts]
-- ==== Proof.Spec.lean ====
/-
  The function both programs compute, on the extended reals.

  The tokens are cut into 16 contiguous slices of 32768 rows; slice a has its own pair of 128×128 weight matrices
  W[a, 0], W[a, 1] (stored [out, in]) and bias vectors b[a, 0], b[a, 1]. A row x of slice a goes through two rectified
  affine layers:

      h[k] = max (∑ j, x[j] · W[a, 0, k, j] + b[a, 0, k]) 0          (k < 128)
      y[g] = max (∑ k, h[k] · W[a, 1, g, k] + b[a, 1, g]) 0          (g < 128)

  `twoLayer` is that function of the tokens laid out [16, 32768, 128]. Nothing here is rearranged between the two sides of
  the certificate: both contract over the same index in the same order, so no law of the extended reals beyond
  definitional unfolding is needed, and no finiteness.
-/
import Idealize.ShloMosaic.PureOps.Ideal
import Idealize.ShloMosaic.Lib.ValueIdx

noncomputable section

open scoped BigOperators

namespace Cert.TwoLayer

open Idealize.ShloMosaic Idealize.ShloMosaic.ValueIdx

/-- Tokens by slice, row and feature. -/
abbrev Tok : Shape := ⟨3, ![16, 32768, 128]⟩
/-- Weights by slice, layer, output feature and input feature. -/
abbrev Wts : Shape := ⟨4, ![16, 2, 128, 128]⟩
/-- Biases by slice, layer and output feature. -/
abbrev Bias : Shape := ⟨3, ![16, 2, 128]⟩

/-- The rectifier's threshold: the float zero, kept as its word (the same word on both sides, never evaluated). -/
abbrev floor0 : EReal := Ideal.ofBits .f32 0x00000000#32

variable (X : Tok.Idx → EReal) (W : Wts.Idx → EReal) (B : Bias.Idx → EReal)

/-- The first layer's output feature k for row n of slice a. -/
def hidden (a : Fin 16) (n : Fin 32768) (k : Fin 128) : EReal :=
  max ((∑ j : Fin 128, X (ix3 a n j) * W (ix4 a (0 : Fin 2) k j)) + B (ix3 a (0 : Fin 2) k)) floor0

/-- The second layer's output feature g for row n of slice a. -/
def outAt (a : Fin 16) (n : Fin 32768) (g : Fin 128) : EReal :=
  max ((∑ k : Fin 128, hidden X W B a n k * W (ix4 a (1 : Fin 2) g k)) + B (ix3 a (1 : Fin 2) g)) floor0

/-- The whole result, laid out like the tokens. -/
def twoLayer : Tok.Idx → EReal := fun i => outAt X W B (i 0) (i 1) (i 2)

theorem twoLayer_apply (a : Fin 16) (n : Fin 32768) (g : Fin 128) : twoLayer X W B (ix3 a n g) = outAt X W B a n g := rfl

end Cert.TwoLayer

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibShapeCast11.lean ====
/-
  Two leading unit axes dropped or added by a shape cast, read at an index. A `[1, 1, a, b]` array and an `[a, b]` array
  have the same row-major order: position (0, 0, i, j) of the first is position (i, j) of the second, both i · b + j. These
  are the rank-4 / rank-2 companions of the one-unit-axis forms (`shapeCast_1ab_ab_apply`, `shapeCast_ab_1ab_apply`), for
  any extents a and b, with both indices written by coordinates.
-/
import Idealize.ShloMosaic.Lib.Pipeline.Value
import Idealize.ShloMosaic.Lib.ValueIdx

namespace Cert.LibShapeCast11

open Idealize.ShloMosaic Idealize.ShloMosaic.ValueIdx Idealize.ShloMosaic.Pipeline

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

end Cert.LibShapeCast11
-- ==== Proof.LibVecCast11.lean ====
/-
  Two leading unit axes dropped from, or added to, a vector by a shape cast, read at an index. A `[1, 1, a]` array and an
  `[a]` vector have the same row-major order: position (0, 0, i) of the first is position i of the second. For any extent a,
  with both indices written by coordinates.
-/
import Idealize.ShloMosaic.Lib.Pipeline.Value
import Idealize.ShloMosaic.Lib.ValueIdx

namespace Cert.LibVecCast11

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` vector cast to `[1, 1, a]` reads, at `(u, u', i)`, the operand at `i`. -/
theorem shapeCast_a_11a_apply {a : ℕ} (x : (⟨1, ![a]⟩ : Shape).Idx → α)
    (h : (⟨1, ![a]⟩ : Shape).ShapeCasts ⟨3, ![1, 1, a]⟩) (u u' : Fin 1) (i : Fin a) :
    shapeCast ⟨3, ![1, 1, a]⟩ x h (ix3 u u' i) = x (ix1 i) :=
  shapeCast_apply x h _ _ (by
    have hu : u.val = 0 := by omega
    have hu' : u'.val = 0 := by omega
    rw [Shape.rowMajor_val_three, Shape.rowMajor_val_one]
    show i.val = (u.val * 1 + u'.val) * a + i.val
    simp only [hu, hu', Nat.zero_mul, Nat.zero_add])

end Cert.LibVecCast11
-- ==== Proof.KernelBlock.lean ====
/-
  What one grid point of the kernel leaves in its output block, entry by entry.

  The body loads a [1, 4096, 128] block of tokens, the slice's two weight matrices (already transposed to [in, out] by the
  host) and its two bias vectors, and stores max (max (x · Wᵀ₀ + b₀) 0 · Wᵀ₁ + b₁) 0. The changes of float format in between
  are the identity on the extended reals, each matrix product into the zero accumulator is the plain sum over the
  contracted index, the bias row is broadcast down the 4096 rows. So entry (p, q) of the block is

      max (∑ k, max (∑ j, x[p, j] · Wᵀ₀[j, k] + b₀[k]) 0 · Wᵀ₁[k, q] + b₁[q]) 0.

  When the loaded blocks are rows n0 … n0 + 4095 of slice a of the tokens and slice a of the (transposed) weights and of the
  biases, that entry is `TwoLayer.outAt` at row n0 + p of slice a.
-/
import proofs.«142614_j30004641530482_1_alg».proof.Proof.Gen.KernelIdeal.Frame
import proofs.«142614_j30004641530482_1_alg».proof.Proof.Spec
import proofs.«142614_j30004641530482_1_alg».proof.Proof.LibPlainDot
import proofs.«142614_j30004641530482_1_alg».proof.Proof.LibShapeCast11
import proofs.«142614_j30004641530482_1_alg».proof.Proof.LibVecCast11
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx
open Cert.TwoLayer (floor0)

theorem zeros3 : (![0, 0, 0] : Fin 3 → Nat) = fun _ => 0 := funext fun a => by fin_cases a <;> rfl

/-! ## One rectified affine layer of the body, at an entry -/

/-- A [4096, 128] block times a [128, 128] matrix into the zero accumulator, plus a bias row broadcast down the rows,
    rectified: entry (p, q) is max (∑ k, L[p, k] · R[k, q] + b[q]) 0. -/
theorem layer_apply (L : FVec Ideal S4096x128 .bf16) (R : FVec Ideal S128x128 .bf16) (b : FVec Ideal S128 .f32)
    (p : Fin 4096) (q : Fin 128) :
    maximumf (addf (matmul dot_S4096x128_S128x128_S4096x128_1_0_0_1_n_n none L R (constant S4096x128 .f32 0x00000000#32))
        (broadcastTo S4096x128 (shapeCast S1x128 b shapeCasts_S128_S1x128) broadcasts_S1x128_S4096x128))
      (broadcast S4096x128 (Scalar.ofBits .f32 0x00000000#32)) (ix2 p q)
      = max ((∑ k : Fin 128, L (ix2 p k) * R (ix2 k q)) + b (ix1 q)) floor0 := by
  show max (FloatOps.matmul (DotDims.plain 4096 128 128) none L R (constant ⟨2, ![4096, 128]⟩ .f32 0x00000000#32) (ix2 p q)
      + broadcastTo S4096x128 (shapeCast S1x128 b shapeCasts_S128_S1x128) broadcasts_S1x128_S4096x128 (ix2 p q)) floor0 = _
  rw [Cert.PlainDot.matmul_zero_apply, broadcastTo_1b_ab_apply, shapeCast_a_1a_apply]

/-! ## The body's stored value, at an entry -/

/-- The payload of the body's one store at (u, p, q), from the five loaded pieces. -/
theorem pay_apply (x0 : Vec Ideal S1x4096x128 .f32) (w0 w1 : Vec Ideal S1x1x128x128 .f32) (b0 b1 : Vec Ideal S1x1x128 .f32)
    (u : Fin 1) (p : Fin 4096) (q : Fin 128) :
    k0_pay1 x0 w0 w1 b0 b1 (ix3 u p q)
      = max ((∑ k : Fin 128, max ((∑ j : Fin 128, x0 (ix3 (0 : Fin 1) p j) * w0 (ix4 (0 : Fin 1) (0 : Fin 1) j k))
              + b0 (ix3 (0 : Fin 1) (0 : Fin 1) k)) floor0 * w1 (ix4 (0 : Fin 1) (0 : Fin 1) k q))
          + b1 (ix3 (0 : Fin 1) (0 : Fin 1) q)) floor0 := by
  unfold k0_pay1
  rw [shapeCast_ab_1ab_apply, layer_apply]
  simp only [truncf_apply, layer_apply, Cert.LibShapeCast11.shapeCast_11ab_ab_apply, shapeCast_1ab_ab_apply,
    Cert.LibVecCast11.shapeCast_11a_a_apply]

/-! ## The loaded pieces: a load through a rectangle reads the block at the rectangle's offset -/

/-- The first weight matrix: the piece at offset (0, 0, 0, 0). -/
theorem ld_w0 (x1 : Vec Ideal S1x2x128x128 .f32) (u v : Fin 1) (j k : Fin 128) :
    View.ld x1 r0_1 (ix4 u v j k) = x1 (ix4 (0 : Fin 1) (0 : Fin 2) j k) :=
  congrArg x1 (funext fun a => Fin.ext (by
    match a with
    | ⟨0, _⟩ => show 0 + 1 * u.val = 0; omega
    | ⟨1, _⟩ => show 0 + 1 * v.val = 0; omega
    | ⟨2, _⟩ => show 0 + 1 * j.val = j.val; omega
    | ⟨3, _⟩ => show 0 + 1 * k.val = k.val; omega))

/-- The second weight matrix: the piece at offset (0, 1, 0, 0). -/
theorem ld_w1 (x1 : Vec Ideal S1x2x128x128 .f32) (u v : Fin 1) (j k : Fin 128) :
    View.ld x1 r0_2 (ix4 u v j k) = x1 (ix4 (0 : Fin 1) (1 : Fin 2) j k) :=
  congrArg x1 (funext fun a => Fin.ext (by
    match a with
    | ⟨0, _⟩ => show 0 + 1 * u.val = 0; omega
    | ⟨1, _⟩ => show 1 + 1 * v.val = 1; omega
    | ⟨2, _⟩ => show 0 + 1 * j.val = j.val; omega
    | ⟨3, _⟩ => show 0 + 1 * k.val = k.val; omega))

/-- The first bias vector: the piece at offset (0, 0, 0). -/
theorem ld_b0 (x2 : Vec Ideal S1x2x128 .f32) (u v : Fin 1) (k : Fin 128) :
    View.ld x2 r0_3 (ix3 u v k) = x2 (ix3 (0 : Fin 1) (0 : Fin 2) k) :=
  congrArg x2 (funext fun a => Fin.ext (by
    match a with
    | ⟨0, _⟩ => show 0 + 1 * u.val = 0; omega
    | ⟨1, _⟩ => show 0 + 1 * v.val = 0; omega
    | ⟨2, _⟩ => show 0 + 1 * k.val = k.val; omega))

/-- The second bias vector: the piece at offset (0, 1, 0). -/
theorem ld_b1 (x2 : Vec Ideal S1x2x128 .f32) (u v : Fin 1) (k : Fin 128) :
    View.ld x2 r0_4 (ix3 u v k) = x2 (ix3 (0 : Fin 1) (1 : Fin 2) k) :=
  congrArg x2 (funext fun a => Fin.ext (by
    match a with
    | ⟨0, _⟩ => show 0 + 1 * u.val = 0; omega
    | ⟨1, _⟩ => show 1 + 1 * v.val = 1; omega
    | ⟨2, _⟩ => show 0 + 1 * k.val = k.val; omega))

/-! ## The output block of a point whose input blocks are slice a, rows n0 … n0 + 4095 -/

/-- The payload at (u, p, q) when the loaded pieces are known entry by entry: token row `p` reads `T p`, the weight
    pieces read `W0`, `W1` at (input, output) and the bias pieces read `B0`, `B1`. -/
theorem pay_of (x0 : Vec Ideal S1x4096x128 .f32) (w0 w1 : Vec Ideal S1x1x128x128 .f32) (b0 b1 : Vec Ideal S1x1x128 .f32)
    (T : Fin 4096 → Fin 128 → EReal) (W0 W1 : Fin 128 → Fin 128 → EReal) (B0 B1 : Fin 128 → EReal)
    (hx : ∀ p j, x0 (ix3 (0 : Fin 1) p j) = T p j)
    (h0 : ∀ j k, w0 (ix4 (0 : Fin 1) (0 : Fin 1) j k) = W0 j k) (h1 : ∀ j k, w1 (ix4 (0 : Fin 1) (0 : Fin 1) j k) = W1 j k)
    (g0 : ∀ k, b0 (ix3 (0 : Fin 1) (0 : Fin 1) k) = B0 k) (g1 : ∀ k, b1 (ix3 (0 : Fin 1) (0 : Fin 1) k) = B1 k)
    (u : Fin 1) (p : Fin 4096) (q : Fin 128) :
    k0_pay1 x0 w0 w1 b0 b1 (ix3 u p q)
      = max ((∑ k : Fin 128, max ((∑ j : Fin 128, T p j * W0 j k) + B0 k) floor0 * W1 k q) + B1 q) floor0 := by
  rw [pay_apply]
  simp only [hx, h0, h1, g0, g1]

/-- If the token block is rows n0 … n0 + 4095 of slice a of `X`, the weight block is slice a of the weights with each
    matrix transposed, and the bias block is slice a of the biases, then the block the body leaves holds, at (u, p, q),
    the two-layer value of row n0 + p of slice a at feature q. -/
theorem block_apply (X : Cert.TwoLayer.Tok.Idx → EReal) (W : Cert.TwoLayer.Wts.Idx → EReal) (B : Cert.TwoLayer.Bias.Idx → EReal)
    (a : Fin 16) (n0 : ℕ) (hn0 : n0 + 4096 ≤ 32768)
    (x0 : Vec Ideal S1x4096x128 .f32) (x1 : Vec Ideal S1x2x128x128 .f32) (x2 : Vec Ideal S1x2x128 .f32)
    (hx : ∀ (p : Fin 4096) (j : Fin 128), x0 (ix3 (0 : Fin 1) p j) = X (ix3 a ⟨n0 + p.val, by omega⟩ j))
    (hw : ∀ (l : Fin 2) (j k : Fin 128), x1 (ix4 (0 : Fin 1) l j k) = W (ix4 a l k j))
    (hb : ∀ (l : Fin 2) (k : Fin 128), x2 (ix3 (0 : Fin 1) l k) = B (ix3 a l k))
    (y : S1x4096x128.Idx) :
    out0_3 x0 x1 x2 y = Cert.TwoLayer.outAt X W B a ⟨n0 + (y 1).val, by have h : (y 1).val < 4096 := (y 1).isLt; omega⟩ (y 2) := by
  obtain ⟨u, p, q, rfl⟩ : ∃ (u : Fin 1) (p : Fin 4096) (q : Fin 128), y = ix3 u p q := ⟨y 0, y 1, y 2, eq_ix3 y⟩
  unfold out0_3
  rw [View.canon_unit_zero zeros3, View.ld_unit_zero (S := S1x4096x128) zeros3]
  exact pay_of x0 (View.ld x1 r0_1) (View.ld x1 r0_2) (View.ld x2 r0_3) (View.ld x2 r0_4)
    (fun p j => X (ix3 a ⟨n0 + p.val, by omega⟩ j)) (fun j k => W (ix4 a (0 : Fin 2) k j)) (fun j k => W (ix4 a (1 : Fin 2) k j))
    (fun k => B (ix3 a (0 : Fin 2) k)) (fun k => B (ix3 a (1 : Fin 2) k))
    hx (fun j k => (ld_w0 x1 0 0 j k).trans (hw 0 j k)) (fun j k => (ld_w1 x1 0 0 j k).trans (hw 1 j k))
    (fun k => (ld_b0 x2 0 0 k).trans (hb 0 k)) (fun k => (ld_b1 x2 0 0 k).trans (hb 1 k)) u p q

end Cert.KernelIdeal.Block

end
-- ==== Proof.KernelArray.lean ====
/-
  The kernel's result array after the run.

  The host reshapes the tokens to [16, 32768, 128] and swaps the last two axes of the weights; the pipeline's grid is
  16 slices × 8 row tiles; at point (a, r) the token window holds rows 4096 r … 4096 r + 4095 of slice a, the weight and
  bias windows hold slice a, and the output window's block is rows 4096 r … of slice a of the result. So what each point
  writes back is a block of ONE function of the arrays as the region finds them, `TwoLayer.twoLayer`; the 128 blocks
  tile the result array, which therefore ends holding that function; the host's closing reshape reads it back as rows.
-/
import proofs.«142614_j30004641530482_1_alg».proof.Proof.Gen.KernelIdeal.Frame
import proofs.«142614_j30004641530482_1_alg».proof.Proof.KernelBlock
import Idealize.ShloMosaic.Lib.Pipeline.Value
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.TwoLayer (twoLayer outAt)

variable (m : (ℓ : Loc nD τ sig) → Buf (Elt Ideal) ℓ) (ρ : Dev nD → PrngReg)

/-! ## The arrays as the region finds them -/

/-- The tokens by slice, row and feature: the host's reshape of the first argument. -/
abbrev tokens (c : Dev nD) : Cert.TwoLayer.Tok.Idx → EReal := V m c main_v0
/-- The weights with each matrix transposed to [in, out]: the host's transpose of the second argument. -/
abbrev weightsT (c : Dev nD) : Cert.TwoLayer.Wts.Idx → EReal := V m c main_v1
/-- The weights as launched, [out, in]. -/
abbrev weights (c : Dev nD) : Cert.TwoLayer.Wts.Idx → EReal := m ((c : Thread nD τ).loc main_arg1)
/-- The biases as launched. -/
abbrev biases (c : Dev nD) : Cert.TwoLayer.Bias.Idx → EReal := m ((c : Thread nD τ).loc main_arg2)

theorem tokens_eq (c : Dev nD) :
    tokens m c = shapeCast S16x32768x128 (m ((c : Thread nD τ).loc main_arg0)) shapeCasts_S524288x128_S16x32768x128 := by
  show StableHlo.after hostOps0 (fun b => m (c, b)) (Proc.devRef .tc main_v0) = _
  after_results <;> rfl

theorem weightsT_eq (c : Dev nD) :
    weightsT m c = transpose S16x2x128x128 [0, 1, 3, 2] (weights m c) transposes_S16x2x128x128_S16x2x128x128_0_1_3_2 := by
  show StableHlo.after hostOps0 (fun b => m (c, b)) (Proc.devRef .tc main_v1) = _
  after_results <;> rfl

/-- The transposed weights at (slice, layer, in, out) are the launched weights at (slice, layer, out, in). -/
theorem weightsT_apply (c : Dev nD) (a : Fin 16) (l : Fin 2) (j k : Fin 128) :
    weightsT m c (ix4 a l j k) = weights m c (ix4 a l k j) := by
  rw [weightsT_eq]
  exact transpose_apply _ _ _ _ _ fun b => match b with
    | ⟨0, _⟩ => rfl
    | ⟨1, _⟩ => rfl
    | ⟨2, _⟩ => rfl
    | ⟨3, _⟩ => rfl

theorem biases_eq (c : Dev nD) : (V m c main_arg2 : Cert.TwoLayer.Bias.Idx → EReal) = biases m c := V_main_arg2 m c

/-! ## The index maps over the grid -/

/-- At every point the token window sits where the output window does, the weight and bias windows at the output's
    slice, and the output's block indices are a slice below 16 and a row tile below 8. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 4) = win0_3.index t (0 : Fin 3) ∧ win0_1.index t (1 : Fin 4) = 0
    ∧ win0_1.index t (2 : Fin 4) = 0 ∧ win0_1.index t (3 : Fin 4) = 0
    ∧ win0_2.index t (0 : Fin 3) = win0_3.index t (0 : Fin 3) ∧ win0_2.index t (1 : Fin 3) = 0 ∧ win0_2.index t (2 : Fin 3) = 0
    ∧ win0_3.index t (0 : Fin 3) < 16 ∧ win0_3.index t (1 : Fin 3) < 8 :=
  (by decide +kernel : ∀ t : Fin grid0.N, _)

/-- Every (slice, row tile) is some point's output block. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-! ## What a point writes back -/

/-- Point `t` writes back block `t` of the two-layer function of the tokens, the launched weights and biases. -/
theorem flushed_eq (c : Dev nD) (t : Fin cfg0.N) :
    (dats m 0 c).flushed 3 t
      = ((cfg0.win 3).blk t).view.read (Elt Ideal) (twoLayer (tokens m c) (weights m c) (biases m c)) := by
  show (cfg0.win 3).cut (grid0.coords t) ((dats m 0 c).after 3 t) = _
  rw [after0_3]
  obtain ⟨e00, e01, e02, e32, e10, e11, e12, e13, e20, e21, e22, b0, b1⟩ := idx_facts t
  funext y
  have hy0 : (y 0).val < 1 := (y 0).isLt
  have hy1 : (y 1).val < 4096 := (y 1).isLt
  refine (Cert.KernelIdeal.Block.block_apply (tokens m c) (weights m c) (biases m c) ⟨win0_3.index t (0 : Fin 3), b0⟩
    (win0_3.index t (1 : Fin 3) * 4096) (by omega) (iblk m c 0 t) (iblk m c 1 t) (iblk m c 2 t) ?_ ?_ ?_ y).trans ?_
  · intro p j
    show V m c main_v0 (((cfg0.win 0).blk t).view.emb (ix3 (0 : Fin 1) p j)) = V m c main_v0 _
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 4096 + 1 * p.val = win0_3.index t (1 : Fin 3) * 4096 + p.val; omega
    | ⟨2, _⟩ => show win0_0.index t (2 : Fin 3) * 128 + 1 * j.val = j.val; omega
  · intro l j k
    have ea : ((cfg0.win 1).blk t).view.emb (ix4 (0 : Fin 1) l j k) = ix4 (⟨win0_3.index t (0 : Fin 3), b0⟩ : Fin 16) l j k :=
      funext fun a => Fin.ext (by
        match a with
        | ⟨0, _⟩ => show win0_1.index t (0 : Fin 4) * 1 + 1 * 0 = win0_3.index t (0 : Fin 3); omega
        | ⟨1, _⟩ => show win0_1.index t (1 : Fin 4) * 2 + 1 * l.val = l.val; omega
        | ⟨2, _⟩ => show win0_1.index t (2 : Fin 4) * 128 + 1 * j.val = j.val; omega
        | ⟨3, _⟩ => show win0_1.index t (3 : Fin 4) * 128 + 1 * k.val = k.val; omega)
    show weightsT m c (((cfg0.win 1).blk t).view.emb (ix4 (0 : Fin 1) l j k)) = _
    rw [ea, weightsT_apply]
  · intro l k
    have ea : ((cfg0.win 2).blk t).view.emb (ix3 (0 : Fin 1) l k) = ix3 (⟨win0_3.index t (0 : Fin 3), b0⟩ : Fin 16) l k :=
      funext fun a => Fin.ext (by
        match a with
        | ⟨0, _⟩ => show win0_2.index t (0 : Fin 3) * 1 + 1 * 0 = win0_3.index t (0 : Fin 3); omega
        | ⟨1, _⟩ => show win0_2.index t (1 : Fin 3) * 2 + 1 * l.val = l.val; omega
        | ⟨2, _⟩ => show win0_2.index t (2 : Fin 3) * 128 + 1 * k.val = k.val; omega)
    show (V m c main_arg2 : Cert.TwoLayer.Bias.Idx → EReal) (((cfg0.win 2).blk t).view.emb (ix3 (0 : Fin 1) l k)) = _
    rw [ea, biases_eq]
  · show _ = twoLayer (tokens m c) (weights m c) (biases m c) (((cfg0.win 3).blk t).view.emb y)
    unfold twoLayer
    have h0 : (⟨win0_3.index t (0 : Fin 3), b0⟩ : Fin 16) = (((cfg0.win 3).blk t).view.emb y) 0 :=
      Fin.ext (by show win0_3.index t (0 : Fin 3) = win0_3.index t (0 : Fin 3) * 1 + 1 * (y 0).val; omega)
    have h1 : (⟨win0_3.index t (1 : Fin 3) * 4096 + (y 1).val, by omega⟩ : Fin 32768) = (((cfg0.win 3).blk t).view.emb y) 1 :=
      Fin.ext (by show win0_3.index t (1 : Fin 3) * 4096 + (y 1).val = win0_3.index t (1 : Fin 3) * 4096 + 1 * (y 1).val; omega)
    have h2 : (y 2 : Fin 128) = (((cfg0.win 3).blk t).view.emb y) 2 :=
      Fin.ext (by show (y 2).val = win0_3.index t (2 : Fin 3) * 128 + 1 * (y 2).val; omega)
    exact congr (congr (congrArg (outAt (tokens m c) (weights m c) (biases m c)) h0) h1) h2

/-! ## The blocks tile the result array -/

/-- An index of the result array is in point `t`'s block iff each coordinate is in the block's range on its axis. -/
theorem mem_blk (t : Fin cfg0.N) (i : S16x32768x128.Idx) :
    i ∈ ((cfg0.win 3).blk t).view.set ↔ ∀ a : Fin 3, win0_3.index t a * S1x4096x128.size a ≤ (i a).val
      ∧ (i a).val < win0_3.index t a * S1x4096x128.size a + S1x4096x128.size a := by
  show i ∈ ((View.whole main_v2).slice (win0_3.rect t)).set ↔ _
  rw [View.set_slice_whole, Rect.mem_set_unit]
  exact Iff.rfl

/-- Every index of the result array is in the block of the point at its slice and its row's tile. -/
theorem cover (i : S16x32768x128.Idx) :
    ∃ t : Fin cfg0.N, (cfg0.win 3).flush t = true ∧ i ∈ ((cfg0.win 3).blk t).view.set := by
  have hi0 : (i 0).val < 16 := (i 0).isLt
  have hi1 : (i 1).val < 32768 := (i 1).isLt
  have hi2 : (i 2).val < 128 := (i 2).isLt
  obtain ⟨t, ht⟩ := idx_onto ⟨(i 0).val, hi0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 128 ≤ (i 2).val ∧ (i 2).val < win0_3.index t (2 : Fin 3) * 128 + 128; omega

/-- The result array after the run is the two-layer function of the tokens, the launched weights and biases. -/
theorem final (c : Dev nD) : (dats m 0 c).arrAt 3 cfg0.N = twoLayer (tokens m c) (weights m c) (biases m c) :=
  (dats m 0 c).arrAt_eq_of_cover 3 (twoLayer (tokens m c) (weights m c) (biases m c)) (fun t _ => flushed_eq m c t) cover

end Cert.KernelIdeal.Arr

end
-- ==== Proof.KernelRun.lean ====
/-
  The kernel's run, read: after every execution the result buffer holds the two-layer function of the launched arguments
  (tokens reshaped by slice, then the result reshaped back to rows), and the arguments are unchanged.
-/
import proofs.«142614_j30004641530482_1_alg».proof.Proof.KernelArray

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.TwoLayer (twoLayer)

variable (m : (ℓ : Loc nD τ sig) → Buf (Elt Ideal) ℓ) (ρ : Dev nD → PrngReg)

/-- The host's closing reshape reads the pipeline's result array back as rows. -/
theorem result_eq (c : Dev nD) :
    Pipeline.afterTail₀ cfgs (dats m) 0 (V0 m) [hostOps1] c main_v3
      = shapeCast S524288x128 (twoLayer (tokens m c) (weights m c) (biases m c)) shapeCasts_S16x32768x128_S524288x128 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = twoLayer (tokens m c) (weights m c) (biases m c) :=
    (Pipeline.withArrays_arr spec0 launch0.win.arr_inj c (V0 m c) (fun w => (dats m 0 c).arrAt w cfg0.N) 3).trans (final m c)
  show shapeCast S524288x128 (Pipeline.withArrays (cfgs 0).spec c (V0 m c) (fun w => (dats m 0 c).arrAt w (cfgs 0).N)
    (Proc.devRef .tc main_v2)) shapeCasts_S16x32768x128_S524288x128 = _
  rw [e]

/-- Every weakly fair execution of the idealized kernel terminates with its result at the two-layer function of the
    launched arguments — the tokens reshaped by slice, the result reshaped back to rows — and the arguments unchanged. -/
theorem run : θ_run defs (onTc (τ := τ) (main (F := Ideal))) ⟨m, fun _ => 0, ρ⟩ fun r => ∀ c : Dev nD,
      r.2.mem ((c.tc : Thread nD τ).loc main_v3)
        = shapeCast S524288x128 (twoLayer (shapeCast S16x32768x128 (m ((c.tc : Thread nD τ).loc main_arg0)) shapeCasts_S524288x128_S16x32768x128)
            (m ((c.tc : Thread nD τ).loc main_arg1)) (m ((c.tc : Thread nD τ).loc main_arg2))) shapeCasts_S16x32768x128_S524288x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 (Pipeline.mem_restRefs_of main_v3 (by decide) (by decide))).trans
        ((result_eq m c).trans (by rw [tokens_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.Arr

end
-- ==== Proof.RefValue.lean ====
/-
  The reference computes `TwoLayer.twoLayer` of the tokens reshaped [16, 32768, 128].

  Per layer l the reference slices W[:, l] and b[:, l], contracts the tokens' feature axis with the weights' input axis
  slice by slice (a batched product: entry (a, n, g) is ∑ k, x[a, n, k] · W[a, l, g, k]), adds the bias broadcast over
  the rows, and rectifies against a zero broadcast to the whole shape. Read at an index, the slices, reshapes and broadcasts
  only re-address their operands; the addresses are computed by division and remainder of row-major positions and
  simplify to the coordinates themselves.
-/
import proofs.«142614_j30004641530482_1_alg».proof.Proof.Gen.ReferenceIdeal.Read
import proofs.«142614_j30004641530482_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.TwoLayer (hidden outAt twoLayer floor0)

/-! ## The composed addresses, coordinate by coordinate -/

/-- The first product reads the token row of the outer index. -/
theorem tok_idx (i : S16x32768x128.Idx) (k j : Fin 128) :
    lidx_main_v3 (lidx_main_v12 i k) j = ix3 (i 0) (i 1) j :=
  funext fun a => Fin.ext (by
    match a with
    | ⟨0, _⟩ => rfl
    | ⟨1, _⟩ => rfl
    | ⟨2, _⟩ => rfl)

/-- The first product's weight: layer 0, output feature k, input feature j of the outer index's slice. -/
theorem w0_idx (i : S16x32768x128.Idx) (k j : Fin 128) :
    idx_main_v1 (idx_main_v2 (ridx_main_v3 (lidx_main_v12 i k) j)) = ix4 (i 0) (0 : Fin 2) k j :=
  funext fun a => Fin.ext (by
    have h0 : (i 0).val < 16 := (i 0).isLt
    have hk := k.isLt
    have hj := j.isLt
    match a with
    | ⟨0, _⟩ => show (((i 0).val * 128 + k.val) * 128 + j.val) / 16384 = (i 0).val; omega
    | ⟨1, _⟩ => rfl
    | ⟨2, _⟩ => show (((i 0).val * 128 + k.val) * 128 + j.val) / 128 % 128 = k.val; omega
    | ⟨3, _⟩ => show (((i 0).val * 128 + k.val) * 128 + j.val) % 128 = j.val; omega)

/-- The first bias: layer 0, feature k of the outer index's slice. -/
theorem b0_idx (i : S16x32768x128.Idx) (k : Fin 128) :
    idx_main_v4 (idx_main_v5 (idx_main_v6 (idx_main_v7 (lidx_main_v12 i k)))) = ix3 (i 0) (0 : Fin 2) k :=
  funext fun a => Fin.ext (by
    have h0 : (i 0).val < 16 := (i 0).isLt
    have hk := k.isLt
    match a with
    | ⟨0, _⟩ => show ((i 0).val * 128 + k.val) / 128 = (i 0).val; omega
    | ⟨1, _⟩ => rfl
    | ⟨2, _⟩ => show ((i 0).val * 128 + k.val) % 128 = k.val; omega)

/-- The second product's weight: layer 1, output feature (i 2), input feature k. -/
theorem w1_idx (i : S16x32768x128.Idx) (k : Fin 128) :
    idx_main_v10 (idx_main_v11 (ridx_main_v12 i k)) = ix4 (i 0) (1 : Fin 2) (i 2) k :=
  funext fun a => Fin.ext (by
    have h0 : (i 0).val < 16 := (i 0).isLt
    have h2 : (i 2).val < 128 := (i 2).isLt
    have hk := k.isLt
    match a with
    | ⟨0, _⟩ => show (((i 0).val * 128 + (i 2).val) * 128 + k.val) / 16384 = (i 0).val; omega
    | ⟨1, _⟩ => rfl
    | ⟨2, _⟩ => show (((i 0).val * 128 + (i 2).val) * 128 + k.val) / 128 % 128 = (i 2).val; omega
    | ⟨3, _⟩ => show (((i 0).val * 128 + (i 2).val) * 128 + k.val) % 128 = k.val; omega)

/-- The second bias: layer 1, feature (i 2). -/
theorem b1_idx (i : S16x32768x128.Idx) :
    idx_main_v13 (idx_main_v14 (idx_main_v15 (idx_main_v16 i))) = ix3 (i 0) (1 : Fin 2) (i 2) :=
  funext fun a => Fin.ext (by
    have h0 : (i 0).val < 16 := (i 0).isLt
    have h2 : (i 2).val < 128 := (i 2).isLt
    match a with
    | ⟨0, _⟩ => show ((i 0).val * 128 + (i 2).val) / 128 = (i 0).val; omega
    | ⟨1, _⟩ => rfl
    | ⟨2, _⟩ => show ((i 0).val * 128 + (i 2).val) % 128 = (i 2).val; omega)

variable (x0 : (⟨S524288x128, .f32⟩ : BufTy).Contents (Elt Ideal)) (x1 : (⟨S16x2x128x128, .f32⟩ : BufTy).Contents (Elt Ideal))
  (x2 : (⟨S16x2x128, .f32⟩ : BufTy).Contents (Elt Ideal))

/-! ## The two layers -/

/-- After the first rectifier the reference holds, at (a, n, k), the first layer's feature k of row n of slice a. -/
theorem first_layer (i : S16x32768x128.Idx) (k : Fin 128) :
    val_main_v9 (F := Ideal) x0 x1 x2 (lidx_main_v12 i k) = hidden (val_main_v0 (F := Ideal) x0) x1 x2 (i 0) (i 1) k := by
  have hs : ∀ j : Fin 128, val_main_v0 (F := Ideal) x0 (lidx_main_v3 (lidx_main_v12 i k) j) * val_main_v2 (F := Ideal) x1 (ridx_main_v3 (lidx_main_v12 i k) j)
      = val_main_v0 (F := Ideal) x0 (ix3 (i 0) (i 1) j) * x1 (ix4 (i 0) (0 : Fin 2) k j) := fun j => by
    rw [val_main_v2_apply, val_main_v1_apply, tok_idx, w0_idx]
    rfl
  rw [val_main_v9_apply, val_main_v8_apply, val_main_v3_apply, val_main_v7_apply, val_main_v6_apply, val_main_v5_apply,
    val_main_v4_apply, val_main_call0_v0_apply, val_main_call0_cst_apply, b0_idx]
  simp only [hs]
  rfl

/-- After the second rectifier the reference holds the two-layer value of the reshaped tokens. -/
theorem second_layer : val_main_v18 (F := Ideal) x0 x1 x2 = twoLayer (val_main_v0 (F := Ideal) x0) x1 x2 := by
  funext i
  have hs : ∀ k : Fin 128, val_main_v9 (F := Ideal) x0 x1 x2 (lidx_main_v12 i k) * val_main_v11 (F := Ideal) x1 (ridx_main_v12 i k)
      = hidden (val_main_v0 (F := Ideal) x0) x1 x2 (i 0) (i 1) k * x1 (ix4 (i 0) (1 : Fin 2) (i 2) k) := fun k => by
    rw [first_layer, val_main_v11_apply, val_main_v10_apply, w1_idx]
    rfl
  rw [val_main_v18_apply, val_main_v17_apply, val_main_v12_apply, val_main_v16_apply, val_main_v15_apply, val_main_v14_apply,
    val_main_v13_apply, val_main_call1_v0_apply, val_main_call1_cst_apply, b1_idx]
  simp only [hs]
  rfl

/-- The reference's result: the two-layer value of the tokens reshaped by slice, reshaped back to rows. -/
theorem result_eq : val_main_v19 (F := Ideal) x0 x1 x2
    = shapeCast S524288x128 (twoLayer (shapeCast S16x32768x128 x0 shapeCasts_S524288x128_S16x32768x128) x1 x2)
        shapeCasts_S16x32768x128_S524288x128 := by
  unfold val_main_v19
  rw [second_layer]
  rfl

end Cert.ReferenceIdeal.RefValue

end
-- ==== Proof.lean ====
/-
  Sixteen token slices, each through its own two rectified affine layers.

  The kernel reshapes the tokens to [16, 32768, 128], transposes each weight matrix to [in, out], and on a 16 × 8 grid
  computes max (max (x · Wᵀ₀ + b₀) 0 · Wᵀ₁ + b₁) 0 on tiles of 4096 rows, with the matrix operands narrowed to bf16 on the
  way in; it reshapes the result back to rows. The reference contracts the tokens' feature axis against the weights'
  input axis slice by slice (a batched product over the stored [out, in] matrices), adds the broadcast bias and
  rectifies, twice, and reshapes back.

  On the extended reals a change of float format is the identity and both matrix products are the plain sum over the
  contracted index, so both programs end with, at row a · 32768 + n and feature g,

      max (∑ k, max (∑ j, x[a, n, j] · W[a, 0, k, j] + b[a, 0, k]) 0 · W[a, 1, g, k] + b[a, 1, g]) 0

  (`TwoLayer.twoLayer`, Proof/Spec.lean). The two sums run over the same index in the same order on both sides: no
  rearrangement, hence no finiteness, is used. The kernel side (Proof/KernelBlock.lean, KernelArray.lean, KernelRun.lean):
  each grid point writes back a block of that one function, the 128 blocks tile the result array, and the closing
  reshape reads it back. The reference side (Proof/RefValue.lean): its slices, reshapes and broadcasts read at an index
  only re-address their operands. The idealization rewrote nothing, so its preservation claim is trivial.
-/
import proofs.«142614_j30004641530482_1_alg».proof.Defs
import proofs.«142614_j30004641530482_1_alg».proof.Proof.Gen.Kernel
import proofs.«142614_j30004641530482_1_alg».proof.Proof.Gen.Kernel.Skeleton
import proofs.«142614_j30004641530482_1_alg».proof.Proof.Gen.Kernel.Launch
import proofs.«142614_j30004641530482_1_alg».proof.Proof.Gen.Kernel.Points
import proofs.«142614_j30004641530482_1_alg».proof.Proof.Gen.Kernel.Frame
import proofs.«142614_j30004641530482_1_alg».proof.Proof.Gen.KernelIdeal
import proofs.«142614_j30004641530482_1_alg».proof.Proof.Gen.KernelIdeal.Skeleton
import proofs.«142614_j30004641530482_1_alg».proof.Proof.Gen.KernelIdeal.Launch
import proofs.«142614_j30004641530482_1_alg».proof.Proof.Gen.KernelIdeal.Points
import proofs.«142614_j30004641530482_1_alg».proof.Proof.Gen.KernelIdeal.Frame
import proofs.«142614_j30004641530482_1_alg».proof.Proof.Gen.ReferenceIdeal
import proofs.«142614_j30004641530482_1_alg».proof.Proof.Gen.Pre_finite_inputs
import proofs.«142614_j30004641530482_1_alg».proof.Proof.Gen.ReferenceIdeal.Run
import proofs.«142614_j30004641530482_1_alg».proof.Proof.Gen.ReferenceIdeal.Read
import proofs.«142614_j30004641530482_1_alg».proof.Proof.KernelRun
import proofs.«142614_j30004641530482_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and writes no argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From arguments that agree, both runs end with the two-layer function of the arguments. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
